-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x2048 .f32) (main_arg1 : FVec F S2048x2048 .f32) (main_arg2 : FVec F S2048 .f32) (main_arg3 : FVec F S_ .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S1x1 : Shape := ⟨2, ![1, 1]⟩
abbrev S512x2048 : Shape := ⟨2, ![512, 2048]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S1x2048, .f32⟩
  | .hbm, ⟨5, _⟩ => ⟨S1x1, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x512, .f32⟩
  | .local _ .vmem, ⟨6, _⟩ => ⟨S1x512, .f32⟩
  | .local _ .vmem, ⟨7, _⟩ => ⟨S1x1, .f32⟩
  | .local _ .vmem, ⟨8, _⟩ => ⟨S512x512, .f32⟩
  | .local _ .vmem, ⟨9, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2048_S1x2048 : S2048.ShapeCasts S1x2048
  shapeCasts_S_S1x1 : S_.ShapeCasts S1x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  reduces_S512x2048_S512 : S512x2048.Reduces [1] S512
  shapeCasts_S512_S512x1 : S512.ShapeCasts S512x1
  shapeCasts_S512_S1x512 : S512.ShapeCasts S1x512
  bitsLt_bf16_f32 : FTy.bits .bf16 < FTy.bits .f32
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x1_S512x512 : S1x1.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x2048.size a
  hwx0_5 : ∀ i : grid0.Coords, EltTy.bits .f32 = 32 ∨ (Rect.block (s := S8192x2048) S512x512.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S2048x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S1x2048_S2048x2048_0_1 : S1x2048.BroadcastsInDim S2048x2048 (![0, 1] : Fin 2 → Fin S2048x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S2048x2048_S2048_d1 : S2048x2048.ReducesTo [1] S2048
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.LibSharedFrame.lean ====
/-
  The frame run of a one-region pipeline kernel whose INPUT windows may share an array.

  The library's frame run asks that the windows' arrays be pairwise distinct, and uses that in one place only: to deal
  each window its array at the full share. Here the caller says instead how the buffers behind the arrays, each whole
  at the full share at the region-entry contents, make the proof data's arrays (an array read through two windows
  is split between them); everything else is the same run: no semaphore of the kernel's own, the class invariant
  (the scoped rest and the generator register) constant in the point, the other unscoped buffers bypassing the
  region and read back at the end.
-/
import Idealize.ShloMosaic.Lib.Pipeline.Frame

noncomputable section

namespace Cert.LibSharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run over windows that may share arrays: the layout facts by name (`hinj`, `hw`, `hne`, `harr`,
    `hstage`), the body obligation, nothing owed, @main up to the region (`hmain`) with the buffers' contents there
    (`V`), how the buffers behind the arrays make the proof data's arrays at entry (`hsplit`), and the invariant the
    class's at every point (`hΦ`). Concludes the library's `FramePost`: every window's array at the proof data's
    `arrAt … N`, every other unscoped buffer as the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t = ΦA (cfgs p).spec c) :
    θ_run (Pipeline.defs (fun q => Cfg.toPCfg (Val := Val) (cfgs q)) defs₀) (onTc main) (s₀ m g) (FramePost cfgs dats p V) := by
  classical
  -- The launch at no semaphore of the kernel's own and no prefetched table, the arrays dealt by `hsplit`. The generator
  -- register and the scoped rest enter the invariant at the first point and leave it after the last; the other unscoped
  -- buffers bypass the region (`Z`) and are read back against the final memory (`QY`).
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := Rounds.initOf (cells cfgs hinj) (launchToks cfgs hinj))
    (hu₀ := by
      iintro Hu; imodintro
      isplitl [Hu]; · iapply (show (ownU _ : sProp 𝕄) ⊢ BI.own (emb₁ (Rounds.initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end Cert.LibSharedFrame

end
-- ==== Proof.KIData.lean ====
/-
  The proof data of the kernel's one pipeline, at any float instance.

  The region is entered after two reshapes of the length scales and the period; the six windows are the x1 row block,
  the x2 row block, the whole row of length scales, the length scales' column block, the period, and the output
  block. Two of them read ONE array (the reshaped length scales): that array is held half by each. Every input
  window's buffer holds its block at every point whether or not it was fetched there; the output's buffer holds after
  the body the one store's value, a function of the five input blocks.
-/
import proofs.«101676_j12438225289613_1_alg».proof.Proof.Gen.KernelIdeal.Launch
import proofs.«101676_j12438225289613_1_alg».proof.Proof.Gen.KernelIdeal.Skeleton
import proofs.«101676_j12438225289613_1_alg».proof.Proof.Gen.KernelIdeal.Points
import Idealize.ShloMosaic.Lib.Pipeline.Frame
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: after the two reshapes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region: the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's buffer holds its block at every point, fetched there or not, for any proof data whose array is
    the region-entry contents and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rX : Rect S512x2048 := Rect.unit (s := S512x2048) ![0, 0] S512x2048.size Facts₀.inb_S512x2048_S512x2048_0_0
abbrev rL : Rect S1x2048 := Rect.unit (s := S1x2048) ![0, 0] S1x2048.size Facts₀.inb_S1x2048_S1x2048_0_0
abbrev rC : Rect S1x512 := Rect.unit (s := S1x512) ![0, 0] S1x512.size Facts₀.inb_S1x512_S1x512_0_0
abbrev rP : Rect S1x1 := Rect.unit (s := S1x1) ![0, 0] S1x1.size Facts₀.inb_S1x1_S1x1_0_0
abbrev rO : Rect S512x512 := Rect.unit (s := S512x512) ![0, 0] S512x512.size Facts₀.inb_S512x512_S512x512_0_0

/-! ## What the body leaves in the output window's buffer -/

/-- The output buffer after the body, from the five input blocks: its one store, over the whole buffer. -/
def out5 (x0 x1 : Vec F S512x2048 .f32) (x2 : Vec F S1x2048 .f32) (x3 : Vec F S1x512 .f32) (x4 : Vec F S1x1 .f32) : Vec F S512x512 .f32 :=
  View.canon [⟨rO, k0_pay1 (k0_pay2 (View.ld x3 rC)) (k0_pay3 (View.ld x2 rL) (View.ld x4 rP) (View.ld x0 rX) (View.ld x1 rX))⟩]

/-- The one store covers the buffer. -/
theorem cover5 (p0 : Vec F S512x512 .f32) (y : S512x512.Idx) :
    ∃ pc ∈ ([⟨rO, p0⟩] : List (View.Piece (Elt F) S512x512 .f32)), y ∈ pc.1.set :=
  View.cover_of_tiled [⟨rO, p0⟩] S512x512.size (by rfl) y

/-! ## The proof data -/

/-- The arrays as the region finds them; after the body each input's buffer at its block and the output's at the
    store's value; the invariant the scoped rest and the generator register, untouched; nothing owed; the reshaped
    length scales held half by the window that reads the whole row and half by the one that reads the column block,
    every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out5 (iblk m c 0 t) (iblk m c 1 t) (iblk m c 2 t) (iblk m c 3 t) (iblk m c 4 t) := by dsimp only [dats]

theorem q_0 (c : Dev nD) : (dats m 0 c).q 0 = fullShare := by dsimp only [dats]
theorem q_1 (c : Dev nD) : (dats m 0 c).q 1 = fullShare := by dsimp only [dats]
theorem q_2 (c : Dev nD) : (dats m 0 c).q 2 = fullShare.left := by dsimp only [dats]
theorem q_3 (c : Dev nD) : (dats m 0 c).q 3 = fullShare.right := by dsimp only [dats]
theorem q_4 (c : Dev nD) : (dats m 0 c).q 4 = fullShare := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

end Cert.KernelIdeal.Hand

end
-- ==== Proof.KIBody.lean ====
/-
  The body obligation of the kernel's pipeline, at any float instance and any grid point.

  Handed the five input buffers at their blocks and the output buffer at anything, the body loads the five blocks,
  computes, reads the output buffer once (the value is not used) and stores the result over the whole output buffer;
  it leaves the inputs as they were and the output at the store's value. The invariant and what the core owes pass
  through untouched.
-/
import proofs.«101676_j12438225289613_1_alg».proof.Proof.KIData
import Idealize.ShloMosaic.Lib.Ring
import Idealize.ShloMosaic.Lib.Tactic

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.Tactic Idealize.ShloMosaic.Rounds

variable {F : FTy → Type} [FloatOps F]

local notation "𝕄" => MT nD τ sig Unit (Elt F) ℕ (UR sig nD τ) ℕ

variable (m : (ℓ : Loc nD τ sig) → Buf (Elt F) ℓ)

/-! ## The kernel function on whole buffers -/

set_option maxHeartbeats 1000000 in
/-- The kernel function on six whole buffers. The five inputs are held at contents `x0 … x4`; the output buffer is held
    at some contents, which the body reads once and never uses. The run loads the length scales, the period, the two
    row blocks and the column block of length scales, loads the output buffer, and stores one value over all of it. It
    reaches any continuation that holds once the inputs are given back unchanged and the output is given back at
    `out5 x0 x1 x2 x3 x4`: a store that covers the buffer leaves exactly the stored value in it. -/
theorem kernel_run (c : Dev nD) (E : Set ℕ) (i : grid0.Coords)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S1x512 .f32) (harg5 : arg5.IsWhole)
    (arg6 : Memref sig .tc .vmem S1x1 .f32) (harg6 : arg6.IsWhole) (arg7 : Memref sig .tc .vmem S512x512 .f32) (harg7 : arg7.IsWhole)
    (x0 x1 : Vec F S512x2048 .f32) (x2 : Vec F S1x2048 .f32) (x3 : Vec F S1x512 .f32) (x4 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out5 x0 x1 x2 x3 x4)) -∗ K ⟨⟩))
      ⊢ wp frame (wpE (defs₀ (F := F)) Variants.none c none) E
          (cc0__kernel i arg2 harg2 arg3 harg3 arg4 harg4 arg5 harg5 arg6 harg6 arg7 harg7) K := by
  simp only [cc0__kernel_eq_skeleton]; unfold cc0__kernel_skel
  unfold owns
  iintro ⟨⟨%g0, %hg0, G0⟩, ⟨%g1, %hg1, G1⟩, ⟨%g2, %hg2, G2⟩, ⟨%g3, %hg3, G3⟩, ⟨%g4, %hg4, G4⟩, ⟨%d5, %g5, -, G5⟩, Hk⟩
  subst hg0 hg1 hg2 hg3 hg4
  sl_exec
  sl_step
  iapply Hk
  isplitl [G0]
  · iexists g0; isplitr; · ipureintro; rfl
    iexact G0
  isplitl [G1]
  · iexists g1; isplitr; · ipureintro; rfl
    iexact G1
  isplitl [G2]
  · iexists g2; isplitr; · ipureintro; rfl
    iexact G2
  isplitl [G3]
  · iexists g3; isplitr; · ipureintro; rfl
    iexact G3
  isplitl [G4]
  · iexists g4; isplitr; · ipureintro; rfl
    iexact G4
  iexists _; isplitr
  swap; · iexact G5
  ipureintro
  exact View.read_writes_eq_canon _ _ _ (cover5 _)

/-! ## The obligation at one point, window by window -/

/-- What the body is handed at point `t`: the invariant and what the core owes before the point, and each window's
    current buffer at what it then holds. -/
def ptPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body hands back: the invariant and what the core owes after the point, and each current buffer at what
    the body leaves in it. -/
def ptPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. Each input's buffer holds its block whatever the point, so the kernel's run applies with the
    five blocks for `x0 … x4`; the output's buffer is handed over at whatever it holds. The body touches neither the
    invariant nor what the core owes, and both are the same before and after a point. -/
theorem body_at_point (c : Dev nD) (t : Fin cfg0.N) :
    ptPre m c t ⊢ wp frame (wpE (defs₀ (F := F)) Variants.none c none) Set.univ (bodyAt0 t) (fun _ => ptPost m c t) := by
  unfold ptPre ptPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, B0⟩, ⟨%d1, B1⟩, ⟨%d2, B2⟩, ⟨%d3, B3⟩, ⟨%d4, B4⟩, ⟨%d5, B5⟩⟩
  iapply (kernel_run c Set.univ (grid0.coords t) _ _ _ _ _ _ _ _ _ _ _ _
    (iblk m c 0 t) (iblk m c 1 t) (iblk m c 2 t) (iblk m c 3 t) (iblk m c 4 t) _)
  isplitl [B0]; · iexact B0
  isplitl [B1]; · iexact B1
  isplitl [B2]; · iexact B2
  isplitl [B3]; · iexact B3
  isplitl [B4]; · iexact B4
  isplitl [B5]; · iexists _; iexact B5
  iintro ⟨B0, B1, B2, B3, B4, B5⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  iexact B5

/-! ## The body obligation -/

/-- The library's body obligation, at every point. -/
theorem body_obligation (c : Dev nD) : BodyObligation (dats (F := F) m 0 c) (defs₀ (F := F)) Variants.none () Set.univ := fun t => by
  rw [bigSep_W0, bigSep_W0]
  exact body_at_point m c t

end Cert.KernelIdeal.Hand

end
-- ==== Proof.KISplit.lean ====
/-
  How the buffers behind the windows' arrays, each whole at the region-entry contents, make the proof data's arrays.

  Five distinct buffers stand behind the six windows. Four are each one window's array, held whole. The reshaped
  length scales are read through two windows: its points-to is split into its left and right halves, one for the window
  over the whole row and one for the window over a column block.
-/
import proofs.«101676_j12438225289613_1_alg».proof.Proof.KIData
import Idealize.ShloMosaic.Lib.Pipeline.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The buffers behind the arrays, whole at the region-entry contents, are the proof data's arrays at entry. -/
theorem hsplit (c : Dev nD) :
    (Pipeline.arrBufs spec0 c (V m c) : sProp 𝕄) ⊢ (dats m 0 c).arrays ((dats m 0 c).arrAt · 0) := by
  classical
  unfold Pipeline.arrBufs Dat.arrays
  -- the five buffers, and the six windows, each as a chain
  rw [bigSep_eq_bigSepL_of_eq [main_arg0, main_arg1, main_v0, main_v1, main_v2] (by decide) (by decide), bigSep_W0]
  simp only [bigSepL_cons_cons, bigSepL_singleton, View.set_whole]
  -- every window's array is a whole buffer, at the region-entry contents; the shares are the proof data's
  show iprop(((c : Thread nD τ).loc main_arg0 ↦{fullShare} V m c main_arg0)
      ∗ ((c : Thread nD τ).loc main_arg1 ↦{fullShare} V m c main_arg1)
      ∗ ((c : Thread nD τ).loc main_v0 ↦{fullShare} V m c main_v0)
      ∗ ((c : Thread nD τ).loc main_v1 ↦{fullShare} V m c main_v1)
      ∗ ((c : Thread nD τ).loc main_v2 ↦{fullShare} V m c main_v2))
    ⊢ iprop(((c : Thread nD τ).loc main_arg0 ↦{fullShare} V m c main_arg0)
      ∗ ((c : Thread nD τ).loc main_arg1 ↦{fullShare} V m c main_arg1)
      ∗ ((c : Thread nD τ).loc main_v0 ↦{fullShare.left} V m c main_v0)
      ∗ ((c : Thread nD τ).loc main_v0 ↦{fullShare.right} V m c main_v0)
      ∗ ((c : Thread nD τ).loc main_v1 ↦{fullShare} V m c main_v1)
      ∗ ((c : Thread nD τ).loc main_v2 ↦{fullShare} V m c main_v2))
  iintro ⟨H0, H1, H2, H3, H4⟩
  -- the reshaped length scales: one half for each of the two windows that read it
  ihave H2 := (pointsTo_share (PosShare.mem_left_op_right fullShare)).1 $$ H2
  icases H2 with ⟨H2a, H2b⟩
  isplitl [H0]; · iexact H0
  isplitl [H1]; · iexact H1
  isplitl [H2a]; · iexact H2a
  isplitl [H2b]; · iexact H2b
  isplitl [H3]; · iexact H3
  iexact H4

end Cert.KernelIdeal.Hand

end
-- ==== Proof.KIRun.lean ====
/-
  The kernel's run and its frame, at any float instance.

  The run is the frame run over windows that share an array: the body obligation at every point, the program up to
  the region, and the reshaped length scales' buffer dealt half to each of its two windows. Its post names every
  window's array after the run and keeps every other buffer; the four arguments are two windows' input arrays,
  unchanged because no window writes them back, and two buffers no window stages.
-/
import proofs.«101676_j12438225289613_1_alg».proof.Proof.KIBody
import proofs.«101676_j12438225289613_1_alg».proof.Proof.KISplit
import proofs.«101676_j12438225289613_1_alg».proof.Proof.LibSharedFrame

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
/-- From any memory with zero counters every weakly fair execution of the program terminates, and every final state
    has each window's array at what the proof data compute and every other unscoped buffer as the region found it. -/
theorem run_main : θ_run defs (onTc (τ := τ) (main (F := F))) (s₀ m ρ) (Pipeline.FramePost cfgs (dats m) 0 (V m)) :=
  Cert.LibSharedFrame.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The four arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c),
     ((h c).2 main_arg3 (Pipeline.mem_restRefs_of main_arg3 rfl (by decide))).trans (V_main_arg3 m c)⟩)
    (run_main m ρ)

end Cert.KernelIdeal.Hand

end
-- ==== Proof.Spec.lean ====
/-
  The periodic kernel's value, index by index, over the extended reals.

  With e k = exp (ls k), a k = x1 n k / e k and b k = x2 j k / e k, the squared distance between row n of the scaled
  x1 and row j of the scaled x2 is taken through the expansion |a|² + |b|² − 2 a·b, clamped at zero before the square
  root; the result at (n, j) is exp (−2 sin² (π̃ d / exp per) / e j²), where π̃ is the single-precision literal both
  programs carry and column j's length scale is e j (the scales index columns: the two extents are equal). The three
  sums run over the 2048 coordinates; the literals stay the words the programs print.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SX1 : Shape := ⟨2, ![8192, 2048]⟩
abbrev SX2 : Shape := ⟨2, ![2048, 2048]⟩
abbrev SLS : Shape := ⟨1, ![2048]⟩
abbrev SP : Shape := ⟨0, ![]⟩

/-- The clamped distance between two scaled rows a and b: √ max (|a|² + |b|² − 2 a·b, 0). -/
def dist (a b : Fin 2048 → EReal) : EReal :=
  Ideal.sqrt (max (((∑ k : Fin 2048, a k * a k) + (∑ k : Fin 2048, b k * b k))
      - Ideal.ofBits .f32 0x40000000#32 * (∑ k : Fin 2048, a k * b k)) (Ideal.ofBits .f32 0x00000000#32))

/-- The sine of the distance scaled by π̃ over the period's exponential pe. -/
def wave (a b : Fin 2048 → EReal) (pe : EReal) : EReal :=
  Ideal.sin (Ideal.div (Ideal.ofBits .f32 0x40490FDA#32 * dist a b) pe)

/-- One result entry from its two scaled rows, the period's exponential pe and the column's scale ce:
    exp (((−2 · w) · w) / (ce · ce)), w the wave. -/
def core (a b : Fin 2048 → EReal) (pe ce : EReal) : EReal :=
  Ideal.exp (Ideal.div ((Ideal.ofBits .f32 0xC0000000#32 * wave a b pe) * wave a b pe) (ce * ce))

/-- The length scale of coordinate k. -/
def scale (ls : SLS.Idx → EReal) (k : Fin 2048) : EReal := Ideal.exp (ls (ix1 k))

/-- Row n of x1 divided, coordinate by coordinate, by the scales. -/
def sc1 (x1 : SX1.Idx → EReal) (ls : SLS.Idx → EReal) (n : Fin 8192) (k : Fin 2048) : EReal :=
  Ideal.div (x1 (ix2 n k)) (scale ls k)

/-- Row j of x2 divided, coordinate by coordinate, by the scales. -/
def sc2 (x2 : SX2.Idx → EReal) (ls : SLS.Idx → EReal) (j : Fin 2048) (k : Fin 2048) : EReal :=
  Ideal.div (x2 (ix2 j k)) (scale ls k)

/-- The result at row n, column j. -/
def Gat (x1 : SX1.Idx → EReal) (x2 : SX2.Idx → EReal) (ls : SLS.Idx → EReal) (per : SP.Idx → EReal) (n : Fin 8192) (j : Fin 2048) : EReal :=
  core (sc1 x1 ls n) (sc2 x2 ls j) (Ideal.exp (per ix0)) (scale ls j)

/-- The result array as one function of the four argument arrays. -/
def G (x1 : SX1.Idx → EReal) (x2 : SX2.Idx → EReal) (ls : SLS.Idx → EReal) (per : SP.Idx → EReal) : SX1.Idx → EReal :=
  fun i => Gat x1 x2 ls per (i 0) (i 1)

theorem G_ix2 (x1 : SX1.Idx → EReal) (x2 : SX2.Idx → EReal) (ls : SLS.Idx → EReal) (per : SP.Idx → EReal) (n : Fin 8192) (j : Fin 2048) :
    G x1 x2 ls per (ix2 n j) = Gat x1 x2 ls per n j := rfl

/-- The one law between the two programs: the factor −2 may be multiplied in before or after the square. -/
theorem neg_two_assoc (c v : EReal) : c * (v * v) = (c * v) * v := (mul_assoc c v v).symm

end Cert.Spec

end
-- ==== Proof.KIPay.lean ====
/-
  The store's value at one entry of the output block, over the extended reals.

  At row p and column q of the block the body's value is the specification's entry of the two scaled rows: row p of
  the x1 block and row q of the x2 block, each divided coordinate by coordinate by the exponentials of the length
  scales' row, with the period block's exponential and the exponential of entry q of the length scales' column block.
  The two lane sums and the matrix product (its operands' change of format the identity here) are plain sums over
  the 2048 coordinates.
-/
import proofs.«101676_j12438225289613_1_alg».proof.Proof.KIData
import proofs.«101676_j12438225289613_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx
open scoped BigOperators

/-! ## The layout operations at explicit coordinates -/

section Layout
variable {α : Type}

/-- A length-a vector cast to an a × 1 column reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column broadcast to a × b reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 1 × 1 array broadcast to a × b reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The two lane sums and the matrix product as sums over the 2048 coordinates -/

/-- A 512 × 2048 array summed along its rows reads, at r, the sum of row r. -/
theorem rowSum_apply (v : FVec Ideal S512x2048 .f32) (hφ : FKind.Formats .f32)
    (hacc : (0x00000000#32 : BitVec 32) = 0x00000000#32) (r : Fin 512) :
    multiReduction (F := Ideal) .add [1] S512 v 0x00000000#32 reduces_S512x2048_S512 hφ hacc (ix1 r)
      = ∑ k : Fin 2048, v (ix2 r k) := by
  refine (Ideal.multiReduction_add_single v 0x00000000#32 reduces_S512x2048_S512 hφ hacc (ix1 r)).trans ?_
  refine Finset.sum_congr rfl fun k _ => congrArg v ?_
  exact funext fun a => Fin.ext (by match a with | ⟨0, _⟩ => rfl | ⟨1, _⟩ => rfl)

/-- The left operand's index of the product at output (i 0, i 1) and contraction coordinate: its row is i 0 … -/
theorem lhs_dot_0 (i : S512x512.Idx) (q : Cert.KernelIdeal.dot_S512x2048_S512x2048_S512x512_1_1_0_0_n_n.contr.Idx) :
    (Cert.KernelIdeal.dot_S512x2048_S512x2048_S512x512_1_1_0_0_n_n.lhsIdx i q 0).val = (i 0).val := by
  unfold DotDims.lhsIdx
  rw [dif_neg (show ¬(0 : Fin S512x2048.rank) ∈ Cert.KernelIdeal.dot_S512x2048_S512x2048_S512x512_1_1_0_0_n_n.lhsBatch by decide), dif_pos (show (0 : Fin S512x2048.rank) ∈ Cert.KernelIdeal.dot_S512x2048_S512x2048_S512x512_1_1_0_0_n_n.lhsNonContracting by decide)]
  rfl
/-- … and its column the contraction coordinate. -/
theorem lhs_dot_1 (i : S512x512.Idx) (q : Cert.KernelIdeal.dot_S512x2048_S512x2048_S512x512_1_1_0_0_n_n.contr.Idx) :
    (Cert.KernelIdeal.dot_S512x2048_S512x2048_S512x512_1_1_0_0_n_n.lhsIdx i q 1).val = (q ⟨0, by decide⟩).val :=
  Cert.KernelIdeal.dot_S512x2048_S512x2048_S512x512_1_1_0_0_n_n.lhsIdx_val_of_single rfl i q
/-- The right operand's row is i 1 … -/
theorem rhs_dot_0 (i : S512x512.Idx) (q : Cert.KernelIdeal.dot_S512x2048_S512x2048_S512x512_1_1_0_0_n_n.contr.Idx) :
    (Cert.KernelIdeal.dot_S512x2048_S512x2048_S512x512_1_1_0_0_n_n.rhsIdx i q 0).val = (i 1).val := by
  unfold DotDims.rhsIdx
  rw [dif_neg (show ¬(0 : Fin S512x2048.rank) ∈ Cert.KernelIdeal.dot_S512x2048_S512x2048_S512x512_1_1_0_0_n_n.rhsBatch by decide), dif_pos (show (0 : Fin S512x2048.rank) ∈ Cert.KernelIdeal.dot_S512x2048_S512x2048_S512x512_1_1_0_0_n_n.rhsNonContracting by decide)]
  rfl
/-- … and its column the contraction coordinate: both operands contract their second axis. -/
theorem rhs_dot_1 (i : S512x512.Idx) (q : Cert.KernelIdeal.dot_S512x2048_S512x2048_S512x512_1_1_0_0_n_n.contr.Idx) :
    (Cert.KernelIdeal.dot_S512x2048_S512x2048_S512x512_1_1_0_0_n_n.rhsIdx i q 1).val = (q ⟨0, by decide⟩).val :=
  Cert.KernelIdeal.dot_S512x2048_S512x2048_S512x512_1_1_0_0_n_n.rhsIdx_val_of_single rfl i q

/-- The product into the zero accumulator reads, at (p, q), the sum over k of row p of the left operand times row q
    of the right one. -/
theorem dot_apply {φ₁ φ₂ : FTy} (l : FVec Ideal S512x2048 φ₁) (r : FVec Ideal S512x2048 φ₂) (p q : Fin 512) :
    matmul (F := Ideal) Cert.KernelIdeal.dot_S512x2048_S512x2048_S512x512_1_1_0_0_n_n none l r (constant (F := Ideal) S512x512 .f32 0x00000000#32) (ix2 p q)
      = ∑ k : Fin 2048, l (ix2 p k) * r (ix2 q k) := by
  simp only [matmul]
  rw [Ideal.matmul_constant_zero_apply, ← Equiv.sum_comp (ValueIdx.contrEquiv1 Cert.KernelIdeal.dot_S512x2048_S512x2048_S512x512_1_1_0_0_n_n 2048 rfl rfl).symm]
  refine Finset.sum_congr rfl fun k _ => ?_
  have hk := ValueIdx.contrEquiv1_symm_val Cert.KernelIdeal.dot_S512x2048_S512x2048_S512x512_1_1_0_0_n_n 2048 rfl rfl k
  have el : Cert.KernelIdeal.dot_S512x2048_S512x2048_S512x512_1_1_0_0_n_n.lhsIdx (ix2 p q) ((ValueIdx.contrEquiv1 Cert.KernelIdeal.dot_S512x2048_S512x2048_S512x512_1_1_0_0_n_n 2048 rfl rfl).symm k) = ix2 p k := funext fun a => Fin.ext (by
    match a with
    | ⟨0, _⟩ => exact lhs_dot_0 _ _
    | ⟨1, _⟩ => exact (lhs_dot_1 _ _).trans hk)
  have er : Cert.KernelIdeal.dot_S512x2048_S512x2048_S512x512_1_1_0_0_n_n.rhsIdx (ix2 p q) ((ValueIdx.contrEquiv1 Cert.KernelIdeal.dot_S512x2048_S512x2048_S512x512_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

/-! ## The three payloads at an index -/

/-- The column block's exponential, entry by entry: its reshape keeps the shape. -/
theorem pay2_apply (x3 : Vec Ideal S1x512 .f32) (j : S1x512.Idx) : k0_pay2 (F := Ideal) x3 j = Ideal.exp (x3 j) := by
  unfold k0_pay2
  show Ideal.exp (shapeCast S1x512 x3 shapeCasts_S1x512_S1x512 j) = _
  rw [shapeCast_self]

/-- The stored value at (p, q): the exponential of the numerator there over the square of the column scale q. -/
theorem pay1_apply (v32 : FVec Ideal S1x512 .f32) (v40 : FVec Ideal S512x512 .f32) (p q : Fin 512) :
    k0_pay1 (F := Ideal) v32 v40 (ix2 p q)
      = Ideal.exp (Ideal.div (v40 (ix2 p q)) (v32 (ix2 (0 : Fin 1) q) * v32 (ix2 (0 : Fin 1) q))) := by
  unfold k0_pay1
  show Ideal.exp (Ideal.div (v40 (ix2 p q)) (broadcastTo S512x512 (mulf v32 v32) broadcasts_S1x512_S512x512 (ix2 p q))) = _
  rw [broadcastTo_1b_ab_apply]
  rfl

/-- The scaled rows: the length scales' exponentials, broadcast down the rows, divide each block entry. -/
theorem scaled_apply (x : FVec Ideal S512x2048 .f32) (x2 : FVec Ideal S1x2048 .f32) (r : Fin 512) (k : Fin 2048) :
    divf (F := Ideal) x (broadcastTo S512x2048 (exp (F := Ideal) (shapeCast S1x2048 x2 shapeCasts_S1x2048_S1x2048)) broadcasts_S1x2048_S512x2048) (ix2 r k)
      = Ideal.div (x (ix2 r k)) (Ideal.exp (x2 (ix2 (0 : Fin 1) k))) := by
  rw [divf_apply]
  rw [broadcastTo_1b_ab_apply, shapeCast_self]
  rfl

/-- An exponential, a sine and a square root of a vector are taken entry by entry. -/
theorem vexp_apply {s : Shape} {φ : FTy} (a : FVec Ideal s φ) (i : s.Idx) : exp a i = Ideal.exp (a i) := rfl
theorem vsin_apply {s : Shape} {φ : FTy} (a : FVec Ideal s φ) (i : s.Idx) : sin a i = Ideal.sin (a i) := rfl
theorem vsqrt_apply {s : Shape} {φ : FTy} (a : FVec Ideal s φ) (i : s.Idx) : sqrt a i = Ideal.sqrt (a i) := rfl

/-- The expansion of the squared distance at (p, q), from two scaled blocks s0 and s1: the sum of squares of row p
    of s0, kept as a column and broadcast along the rows, plus that of row q of s1, kept as a row and broadcast down
    the columns, minus twice the product's entry (the operands' narrowing is the identity on extended reals). -/
theorem expansion_apply (s0 s1 : FVec Ideal S512x2048 .f32) (hφ : FKind.Formats .f32)
    (hacc : (0x00000000#32 : BitVec 32) = 0x00000000#32) (p q : Fin 512) :
    subf (F := Ideal)
        (addf
          (broadcastTo S512x512 (shapeCast S512x1 (multiReduction (F := Ideal) .add [1] S512 (mulf s0 s0) 0x00000000#32 reduces_S512x2048_S512 hφ hacc) shapeCasts_S512_S512x1) broadcasts_S512x1_S512x512)
          (broadcastTo S512x512 (shapeCast S1x512 (multiReduction (F := Ideal) .add [1] S512 (mulf s1 s1) 0x00000000#32 reduces_S512x2048_S512 hφ hacc) shapeCasts_S512_S1x512) broadcasts_S1x512_S512x512))
        (mulf (broadcast S512x512 (Scalar.ofBits (F := Ideal) .f32 0x40000000#32))
          (matmul Cert.KernelIdeal.dot_S512x2048_S512x2048_S512x512_1_1_0_0_n_n none (truncf .bf16 s0 bitsLt_bf16_f32) (truncf .bf16 s1 bitsLt_bf16_f32)
            (constant (F := Ideal) S512x512 .f32 0x00000000#32)))
        (ix2 p q)
      = ((∑ k : Fin 2048, s0 (ix2 p k) * s0 (ix2 p k)) + (∑ k : Fin 2048, s1 (ix2 q k) * s1 (ix2 q k)))
          - Ideal.ofBits .f32 0x40000000#32 * (∑ k : Fin 2048, s0 (ix2 p k) * s1 (ix2 q k)) := by
  rw [subf_apply, addf_apply, mulf_apply, broadcast_apply, broadcastTo_a1_ab_apply, shapeCast_a_a1_apply, rowSum_apply,
    broadcastTo_1b_ab_apply, shapeCast_a_1a_apply, rowSum_apply, dot_apply]
  rfl

/-- The period's exponential, broadcast over the block. -/
theorem period_apply (x4 : FVec Ideal S1x1 .f32) (p q : Fin 512) :
    broadcastTo S512x512 (exp (F := Ideal) (shapeCast S1x1 x4 shapeCasts_S1x1_S1x1)) broadcasts_S1x1_S512x512 (ix2 p q)
      = Ideal.exp (x4 (ix2 (0 : Fin 1) (0 : Fin 1))) := by
  rw [broadcastTo_11_ab_apply, shapeCast_self]
  rfl

/-- The numerator at (p, q): minus twice the wave, times the wave, of the two scaled rows. -/
theorem pay3_apply (x2 : Vec Ideal S1x2048 .f32) (x4 : Vec Ideal S1x1 .f32) (x0 x1 : Vec Ideal S512x2048 .f32) (p q : Fin 512) :
    k0_pay3 (F := Ideal) x2 x4 x0 x1 (ix2 p q)
      = (Ideal.ofBits .f32 0xC0000000#32
            * Cert.Spec.wave (fun k : Fin 2048 => Ideal.div (x0 (ix2 p k)) (Ideal.exp (x2 (ix2 (0 : Fin 1) k))))
                (fun k : Fin 2048 => Ideal.div (x1 (ix2 q k)) (Ideal.exp (x2 (ix2 (0 : Fin 1) k)))) (Ideal.exp (x4 (ix2 (0 : Fin 1) (0 : Fin 1)))))
          * Cert.Spec.wave (fun k : Fin 2048 => Ideal.div (x0 (ix2 p k)) (Ideal.exp (x2 (ix2 (0 : Fin 1) k))))
              (fun k : Fin 2048 => Ideal.div (x1 (ix2 q k)) (Ideal.exp (x2 (ix2 (0 : Fin 1) k)))) (Ideal.exp (x4 (ix2 (0 : Fin 1) (0 : Fin 1)))) := by
  unfold k0_pay3
  simp only [mulf_apply, divf_apply, maximumf_apply, broadcast_apply, vsin_apply, vsqrt_apply]
  rw [expansion_apply, period_apply]
  simp only [scaled_apply]
  rfl

/-! ## The store's value -/

/-- The whole-buffer rectangles sit at zero offsets. -/
theorem offsets_zero : (![0, 0] : Fin 2 → Nat) = fun _ => 0 :=
  funext fun a => by match a with | ⟨0, _⟩ => rfl | ⟨1, _⟩ => rfl

/-- The output buffer after the body, at row p and column q, from the five input blocks. -/
theorem out5_apply (x0 x1 : Vec Ideal S512x2048 .f32) (x2 : Vec Ideal S1x2048 .f32) (x3 : Vec Ideal S1x512 .f32) (x4 : Vec Ideal S1x1 .f32)
    (p q : Fin 512) :
    out5 (F := Ideal) x0 x1 x2 x3 x4 (ix2 p q)
      = Cert.Spec.core (fun k : Fin 2048 => Ideal.div (x0 (ix2 p k)) (Ideal.exp (x2 (ix2 (0 : Fin 1) k))))
          (fun k : Fin 2048 => Ideal.div (x1 (ix2 q k)) (Ideal.exp (x2 (ix2 (0 : Fin 1) k))))
          (Ideal.exp (x4 (ix2 (0 : Fin 1) (0 : Fin 1)))) (Ideal.exp (x3 (ix2 (0 : Fin 1) q))) := by
  unfold out5
  rw [View.canon_unit_zero offsets_zero]
  simp only [View.ld_unit_zero (S := S512x2048) offsets_zero, View.ld_unit_zero (S := S1x2048) offsets_zero,
    View.ld_unit_zero (S := S1x512) offsets_zero, View.ld_unit_zero (S := S1x1) offsets_zero]
  rw [pay1_apply, pay2_apply, pay3_apply]
  rfl

end Cert.KernelIdeal.Hand

end
-- ==== Proof.KIValue.lean ====
/-
  The kernel's result array after the run is the specified function of the four arguments, over the extended reals.

  Point t of the 16 × 4 grid writes back block (i, j) of the result: rows 512 i …, columns 512 j …. Its x1 block is
  rows 512 i … of x1, its x2 block rows 512 j … of x2, its length-scale row the whole reshaped array, its
  length-scale column block entries 512 j … of it, its period the reshaped scalar. The reshapes only add unit axes, so
  entry (0, k) of the reshaped length scales is entry k of the argument. Hence the value the body stores at (p, q) of
  the block is the specification's entry (512 i + p, 512 j + q); the 64 blocks tile the array.
-/
import proofs.«101676_j12438225289613_1_alg».proof.Proof.KIData
import proofs.«101676_j12438225289613_1_alg».proof.Proof.KIPay
import proofs.«101676_j12438225289613_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Hand

open Idealize.ShloMosaic Idealize.ShloMosaic.TcCoe Idealize.SL.Sem Idealize.ShloMosaic.StableHlo
open Idealize.ShloMosaic.Pipeline (Dat Cfg Window)
open Cert.KernelIdeal Cert.KernelIdeal.Gen Idealize.ShloMosaic.ValueIdx

variable (m : (ℓ : Loc nD τ sig) → Buf (Elt Ideal) ℓ)

/-! ## The two reshaped arrays as the region finds them -/

/-- The reshaped length scales: the argument with a unit axis in front. -/
theorem V_main_v0 (c : Dev nD) :
    (V m c main_v0 : S1x2048.Idx → EReal) = shapeCast S1x2048 (m ((c : Thread nD τ).loc main_arg2)) Facts₀.shapeCasts_S2048_S1x2048 := by
  dsimp only [V, hostOps0]; after_results; rfl

/-- The reshaped period: the scalar as a 1 × 1 array. -/
theorem V_main_v1 (c : Dev nD) :
    (V m c main_v1 : S1x1.Idx → EReal) = shapeCast S1x1 (m ((c : Thread nD τ).loc main_arg3)) Facts₀.shapeCasts_S_S1x1 := by
  dsimp only [V, hostOps0]; after_results; rfl

/-- Entry (u, k) of the reshaped length scales is entry k of the argument. -/
theorem V_main_v0_apply (c : Dev nD) (u : Fin 1) (k : Fin 2048) :
    (V m c main_v0 : S1x2048.Idx → EReal) (ix2 u k) = (m ((c : Thread nD τ).loc main_arg2) : S2048.Idx → EReal) (ix1 k) := by
  rw [V_main_v0]; exact shapeCast_a_1a_apply _ _ u k

/-- The one entry of the reshaped period is the argument. -/
theorem V_main_v1_apply (c : Dev nD) (u v : Fin 1) :
    (V m c main_v1 : S1x1.Idx → EReal) (ix2 u v) = (m ((c : Thread nD τ).loc main_arg3) : S_.Idx → EReal) ix0 := by
  rw [V_main_v1]
  refine shapeCast_apply _ _ _ _ ?_
  have hu : u.val = 0 := by omega
  have hv : v.val = 0 := by omega
  rw [Shape.rowMajor_val_two]
  show _ = u.val * 1 + v.val
  rw [hu, hv]
  rfl

/-! ## The index maps, decided over the grid -/

/-- Each input window's block index in terms of the output window's: the x1 block follows the output's row index,
    the x2 block and the length-scale column block its column index, the length-scale row and the period stay put. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = 0
    ∧ win0_5.index t (0 : Fin 2) ≤ 15 ∧ win0_5.index t (1 : Fin 2) ≤ 3 :=
  (by decide +kernel : ∀ t : Fin grid0.N, _)

/-- Every block of the result is some point's. -/
theorem idx_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-! ## The result as one function of the arguments -/

/-- The specified function of the four arguments as core c was launched with them. -/
def GV (c : Dev nD) : S8192x2048.Idx → EReal :=
  Cert.Spec.G (m ((c : Thread nD τ).loc main_arg0)) (m ((c : Thread nD τ).loc main_arg1)) (m ((c : Thread nD τ).loc main_arg2)) (m ((c : Thread nD τ).loc main_arg3))

/-! ## The input blocks read where the output's block says -/

theorem blk0_apply (c : Dev nD) (t : Fin cfg0.N) (p : Fin 512) (k : Fin 2048) :
    (iblk m c 0 t : S512x2048.Idx → EReal) (ix2 p k)
      = (m ((c : Thread nD τ).loc main_arg0) : S8192x2048.Idx → EReal) (ix2 ⟨win0_5.index t (0 : Fin 2) * 512 + p.val, by have := (idx_facts t).2.2.2.2.2.2.2.2.2.2.1; omega⟩ k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = win0_5.index t (0 : Fin 2) * 512 + p.val; omega
  | ⟨1, _⟩ => show win0_0.index t (1 : Fin 2) * 2048 + 1 * k.val = k.val; omega

theorem blk1_apply (c : Dev nD) (t : Fin cfg0.N) (q : Fin 512) (k : Fin 2048) :
    (iblk m c 1 t : S512x2048.Idx → EReal) (ix2 q k)
      = (m ((c : Thread nD τ).loc main_arg1) : S2048x2048.Idx → EReal) (ix2 ⟨win0_5.index t (1 : Fin 2) * 512 + q.val, by have := (idx_facts t).2.2.2.2.2.2.2.2.2.2.2; omega⟩ k) := by
  obtain ⟨-, -, e10, e11, -⟩ := idx_facts t
  show V m c main_arg1 (((cfg0.win 1).blk t).view.emb (ix2 q k)) = _
  rw [V_main_arg1]
  refine congrArg _ (funext fun a => Fin.ext ?_)
  match a with
  | ⟨0, _⟩ => show win0_1.index t (0 : Fin 2) * 512 + 1 * q.val = win0_5.index t (1 : Fin 2) * 512 + q.val; omega
  | ⟨1, _⟩ => show win0_1.index t (1 : Fin 2) * 2048 + 1 * k.val = k.val; omega

theorem blk2_apply (c : Dev nD) (t : Fin cfg0.N) (k : Fin 2048) :
    (iblk m c 2 t : S1x2048.Idx → EReal) (ix2 (0 : Fin 1) k) = (m ((c : Thread nD τ).loc main_arg2) : S2048.Idx → EReal) (ix1 k) := by
  obtain ⟨-, -, -, -, e20, e21, -⟩ := idx_facts t
  show (V m c main_v0 : S1x2048.Idx → EReal) (((cfg0.win 2).blk t).view.emb (ix2 (0 : Fin 1) k)) = _
  rw [← V_main_v0_apply m c (0 : Fin 1) k]
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * k.val = k.val; omega

theorem blk3_apply (c : Dev nD) (t : Fin cfg0.N) (q : Fin 512) :
    (iblk m c 3 t : S1x512.Idx → EReal) (ix2 (0 : Fin 1) q)
      = (m ((c : Thread nD τ).loc main_arg2) : S2048.Idx → EReal) (ix1 ⟨win0_5.index t (1 : Fin 2) * 512 + q.val, by have := (idx_facts t).2.2.2.2.2.2.2.2.2.2.2; omega⟩) := by
  obtain ⟨-, -, -, -, -, -, e30, e31, -⟩ := idx_facts t
  show (V m c main_v0 : S1x2048.Idx → EReal) (((cfg0.win 3).blk t).view.emb (ix2 (0 : Fin 1) q)) = _
  rw [← V_main_v0_apply m c (0 : Fin 1) ⟨win0_5.index t (1 : Fin 2) * 512 + q.val, by have := (idx_facts t).2.2.2.2.2.2.2.2.2.2.2; omega⟩]
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = win0_5.index t (1 : Fin 2) * 512 + q.val; omega

theorem blk4_apply (c : Dev nD) (t : Fin cfg0.N) :
    (iblk m c 4 t : S1x1.Idx → EReal) (ix2 (0 : Fin 1) (0 : Fin 1)) = (m ((c : Thread nD τ).loc main_arg3) : S_.Idx → EReal) ix0 := by
  obtain ⟨-, -, -, -, -, -, -, -, e40, e41, -⟩ := idx_facts t
  show (V m c main_v1 : S1x1.Idx → EReal) (((cfg0.win 4).blk t).view.emb (ix2 (0 : Fin 1) (0 : Fin 1))) = _
  rw [← V_main_v1_apply m c (0 : Fin 1) (0 : Fin 1)]
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-! ## What a point writes back -/

/-- What point t writes back is block t of the specified function of the arguments. -/
theorem flushed5_eq (c : Dev nD) (t : Fin cfg0.N) :
    (dats m 0 c).flushed 5 t = ((cfg0.win 5).blk t).view.read (Elt Ideal) (GV m c) := by
  show (cfg0.win 5).cut (grid0.coords t) ((dats m 0 c).after 5 t) = _
  rw [after0_5]
  funext y
  obtain ⟨p, q, rfl⟩ : ∃ (p q : Fin 512), y = ix2 p q := ⟨y 0, y 1, eq_ix2 y⟩
  have hb := (idx_facts t).2.2.2.2.2.2.2.2.2.2
  show out5 (F := Ideal) (iblk m c 0 t) (iblk m c 1 t) (iblk m c 2 t) (iblk m c 3 t) (iblk m c 4 t) (ix2 p q)
    = GV m c (((cfg0.win 5).blk t).view.emb (ix2 p q))
  rw [out5_apply]
  have hemb : ((cfg0.win 5).blk t).view.emb (ix2 p q)
      = ix2 (⟨win0_5.index t (0 : Fin 2) * 512 + p.val, by omega⟩ : Fin 8192) (⟨win0_5.index t (1 : Fin 2) * 512 + q.val, by omega⟩ : Fin 2048) := by
    funext a; apply Fin.ext
    match a with
    | ⟨0, _⟩ => show win0_5.index t (0 : Fin 2) * 512 + 1 * p.val = win0_5.index t (0 : Fin 2) * 512 + p.val; omega
    | ⟨1, _⟩ => show win0_5.index t (1 : Fin 2) * 512 + 1 * q.val = win0_5.index t (1 : Fin 2) * 512 + q.val; omega
  rw [hemb]
  unfold GV
  rw [Cert.Spec.G_ix2]
  unfold Cert.Spec.Gat Cert.Spec.sc1 Cert.Spec.sc2 Cert.Spec.scale
  simp only [blk0_apply, blk1_apply, blk2_apply, blk3_apply, blk4_apply]

/-! ## The blocks tile the array -/

/-- An index is in point t's block iff each coordinate is in the block's range. -/
theorem mem_blk5 (t : Fin cfg0.N) (i : S8192x2048.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v2).slice (win0_5.rect t)).set ↔ _
  rw [View.set_slice_whole, Rect.mem_set_unit]
  exact Iff.rfl

/-- Every index of the result is in some point's block: the one at block row ⌊row / 512⌋, block column ⌊column / 512⌋. -/
theorem cover5_arr (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- The result array after the run is the specified function of the arguments. -/
theorem final5 (c : Dev nD) : (dats m 0 c).arrAt 5 cfg0.N = GV m c :=
  (dats m 0 c).arrAt_eq_of_cover 5 (GV m c) (fun t _ => flushed5_eq m c t) cover5_arr

end Cert.KernelIdeal.Hand

end
-- ==== Proof.KIClaim.lean ====
/-
  The idealized kernel's run with its result named: the result array ends at the specified function of the four
  arguments, and the arguments end unchanged.
-/
import proofs.«101676_j12438225289613_1_alg».proof.Proof.KIRun
import proofs.«101676_j12438225289613_1_alg».proof.Proof.KIValue

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

/-- Every weakly fair execution terminates with the result array at the specified function of the arguments as
    launched, and the four arguments as launched. -/
theorem run_value : θ_run defs (onTc (τ := τ) (main (F := Ideal))) ⟨m, fun _ => 0, ρ⟩ (fun r => ∀ c : Dev nD,
      r.2.mem ((c.tc : Thread nD τ).loc main_v2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (final5 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 rfl (by decide))).trans (V_main_arg2 m c),
     ((h c).2 main_arg3 (Pipeline.mem_restRefs_of main_arg3 rfl (by decide))).trans (V_main_arg3 m c)⟩)
    (run_main m ρ)

end Cert.KernelIdeal.Hand

end
-- ==== Proof.RefValue.lean ====
/-
  The reference's result, read one operation at a time, is the specified function of the four arguments.

  Both are, at row n and column j, the exponential of −2 sin²(π̃ d / exp per) over the squared column scale, d the
  clamped distance between the scaled rows; the reference multiplies −2 into the finished square where the
  specification multiplies it in first (associativity of the product on the extended reals), and starts each of its
  two sums of squares from a zero that the specification leaves out.
-/
import proofs.«101676_j12438225289613_1_alg».proof.Proof.Gen.ReferenceIdeal.Read
import proofs.«101676_j12438225289613_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

section stages

variable (x0 : (⟨S8192x2048, .f32⟩ : BufTy).Contents (Elt Ideal)) (x1 : (⟨S2048x2048, .f32⟩ : BufTy).Contents (Elt Ideal))
  (x2 : (⟨S2048, .f32⟩ : BufTy).Contents (Elt Ideal)) (x3 : (⟨S_, .f32⟩ : BufTy).Contents (Elt Ideal))

/-- The exponential of the length-scale array at coordinate k is the scale of coordinate k. -/
theorem scale_at (k : Fin 2048) : val_main_v0 (F := Ideal) x2 (ix1 k) = Cert.Spec.scale x2 k := rfl

/-- The scales spread over the rows of the first argument: at (n, k) the scale of coordinate k. -/
theorem scale_rows_at (n : Fin 8192) (k : Fin 2048) :
    val_main_v3 (F := Ideal) x2 (ix2 n k) = Cert.Spec.scale x2 k := by
  rw [val_main_v3_apply, val_main_v2_apply,
    show idx_main_v2 (idx_main_v3 (ix2 n k)) = ix1 k from
      funext fun a => Fin.ext (by match a with | ⟨0, _⟩ => rfl)]
  exact scale_at x2 k

/-- The scaled first argument at (n, k). -/
theorem sc1_at (n : Fin 8192) (k : Fin 2048) :
    val_main_v4 (F := Ideal) x0 x2 (ix2 n k) = Cert.Spec.sc1 x0 x2 n k := by
  rw [val_main_v4_apply, scale_rows_at, Ideal.hostDivf_def]
  rfl

/-- The scales spread over the rows of the second argument: at (j, k) the scale of coordinate k. -/
theorem scale_rows2_at (j k : Fin 2048) :
    val_main_v6 (F := Ideal) x2 (ix2 j k) = Cert.Spec.scale x2 k := by
  rw [val_main_v6_apply, val_main_v5_apply,
    show idx_main_v5 (idx_main_v6 (ix2 j k)) = ix1 k from
      funext fun a => Fin.ext (by match a with | ⟨0, _⟩ => rfl)]
  exact scale_at x2 k

/-- The scaled second argument at (j, k). -/
theorem sc2_at (j k : Fin 2048) :
    val_main_v7 (F := Ideal) x1 x2 (ix2 j k) = Cert.Spec.sc2 x1 x2 j k := by
  rw [val_main_v7_apply, scale_rows2_at, Ideal.hostDivf_def]
  rfl

/-- The squared length of scaled row n of the first argument; the sum's starting zero drops out. -/
theorem sq1_at (n : Fin 8192) :
    val_main_v9 (F := Ideal) x0 x2 (ix1 n) = ∑ k : Fin 2048, Cert.Spec.sc1 x0 x2 n k * Cert.Spec.sc1 x0 x2 n k := by
  rw [val_main_v9_apply, val_main_cst_apply, Ideal.ofBits_def, Ideal.ofBits_zero_f32, zero_add]
  refine Finset.sum_congr rfl fun k _ => ?_
  rw [val_main_v8_apply,
    show idx_main_v9 (ix1 n) k = ix2 n k from
      funext fun a => Fin.ext (by match a with | ⟨0, _⟩ => rfl | ⟨1, _⟩ => rfl),
    sc1_at, Ideal.mulf_def]

/-- The squared length of scaled row j of the second argument. -/
theorem sq2_at (j : Fin 2048) :
    val_main_v12 (F := Ideal) x1 x2 (ix1 j) = ∑ k : Fin 2048, Cert.Spec.sc2 x1 x2 j k * Cert.Spec.sc2 x1 x2 j k := by
  rw [val_main_v12_apply, val_main_cst_0_apply, Ideal.ofBits_def, Ideal.ofBits_zero_f32, zero_add]
  refine Finset.sum_congr rfl fun k _ => ?_
  rw [val_main_v11_apply,
    show idx_main_v12 (ix1 j) k = ix2 j k from
      funext fun a => Fin.ext (by match a with | ⟨0, _⟩ => rfl | ⟨1, _⟩ => rfl),
    sc2_at, Ideal.mulf_def]

/-- The inner product of scaled row n of the first argument with scaled row j of the second. -/
theorem inner_at (n : Fin 8192) (j : Fin 2048) :
    val_main_v14 (F := Ideal) x0 x1 x2 (ix2 n j) = ∑ k : Fin 2048, Cert.Spec.sc1 x0 x2 n k * Cert.Spec.sc2 x1 x2 j k := by
  rw [val_main_v14_apply]
  refine Finset.sum_congr rfl fun k _ => ?_
  rw [show lidx_main_v14 (ix2 n j) k = ix2 n k from
      funext fun a => Fin.ext (by match a with | ⟨0, _⟩ => rfl | ⟨1, _⟩ => rfl),
    show ridx_main_v14 (ix2 n j) k = ix2 j k from
      funext fun a => Fin.ext (by match a with | ⟨0, _⟩ => rfl | ⟨1, _⟩ => rfl),
    sc1_at, sc2_at]

/-- The first squared length spread along the columns. -/
theorem sq1_cols_at (n : Fin 8192) (j : Fin 2048) :
    val_main_v15 (F := Ideal) x0 x2 (ix2 n j) = val_main_v9 (F := Ideal) x0 x2 (ix1 n) := by
  rw [val_main_v15_apply, val_main_v10_apply]
  exact congrArg _ (funext fun a => Fin.ext (by match a with | ⟨0, _⟩ => rfl))

/-- The second squared length spread along the rows. -/
theorem sq2_rows_at (n : Fin 8192) (j : Fin 2048) :
    val_main_v16 (F := Ideal) x1 x2 (ix2 n j) = val_main_v12 (F := Ideal) x1 x2 (ix1 j) := by
  rw [val_main_v16_apply, val_main_v13_apply]
  exact congrArg _ (funext fun a => Fin.ext (by match a with | ⟨0, _⟩ => rfl))

/-- The clamped distance between scaled row n and scaled row j. -/
theorem dist_at (n : Fin 8192) (j : Fin 2048) :
    val_main_v23 (F := Ideal) x0 x1 x2 (ix2 n j) = Cert.Spec.dist (Cert.Spec.sc1 x0 x2 n) (Cert.Spec.sc2 x1 x2 j) := by
  rw [val_main_v23_apply, val_main_v22_apply, val_main_v20_apply, val_main_v17_apply, val_main_v19_apply,
    val_main_v18_apply, val_main_cst_1_apply, val_main_v21_apply, val_main_cst_2_apply,
    sq1_cols_at, sq2_rows_at, sq1_at, sq2_at, inner_at]
  rfl

/-- The sine of the scaled distance. -/
theorem wave_at (n : Fin 8192) (j : Fin 2048) :
    val_main_v28 (F := Ideal) x0 x1 x2 x3 (ix2 n j)
      = Cert.Spec.wave (Cert.Spec.sc1 x0 x2 n) (Cert.Spec.sc2 x1 x2 j) (Ideal.exp (x3 ix0)) := by
  rw [val_main_v28_apply, val_main_v27_apply, val_main_v25_apply, val_main_v24_apply, val_main_cst_3_apply,
    val_main_v26_apply, val_main_v1_apply, dist_at]
  rfl

/-- The squared scale of column j spread over the rows. -/
theorem scale_sq_at (n : Fin 8192) (j : Fin 2048) :
    val_main_v34 (F := Ideal) x2 (ix2 n j) = Cert.Spec.scale x2 j * Cert.Spec.scale x2 j := by
  rw [val_main_v34_apply, val_main_v33_apply,
    show idx_main_v33 (idx_main_v34 (ix2 n j)) = ix1 j from
      funext fun a => Fin.ext (by match a with | ⟨0, _⟩ => rfl),
    val_main_v32_apply, scale_at, Ideal.mulf_def]

end stages

/-- The reference's last stage is the specified function. -/
theorem ref_is_G (x0 : (⟨S8192x2048, .f32⟩ : BufTy).Contents (Elt Ideal)) (x1 : (⟨S2048x2048, .f32⟩ : BufTy).Contents (Elt Ideal))
    (x2 : (⟨S2048, .f32⟩ : BufTy).Contents (Elt Ideal)) (x3 : (⟨S_, .f32⟩ : BufTy).Contents (Elt Ideal)) :
    val_main_v36 (F := Ideal) x0 x1 x2 x3 = Cert.Spec.G x0 x1 x2 x3 := by
  funext i
  obtain ⟨n, j, rfl⟩ : ∃ (n : Fin 8192) (j : Fin 2048), i = ix2 n j := ⟨i 0, i 1, eq_ix2 i⟩
  rw [Cert.Spec.G_ix2, val_main_v36_apply, val_main_v35_apply, val_main_v31_apply, val_main_v30_apply,
    val_main_cst_4_apply, val_main_v29_apply, wave_at, scale_sq_at,
    Ideal.hostUnary_exp_def, Ideal.hostDivf_def, Ideal.mulf_def, Ideal.mulf_def, Ideal.ofBits_def,
    Cert.Spec.neg_two_assoc]
  rfl

end Cert.ReferenceIdeal.RefValue

end
-- ==== Proof.lean ====
/-
  The periodic kernel against its reference: both compute, at row n and column j,
  exp (−2 sin² (π̃ d / exp per) / e j²), d the clamped distance between row n of x1 and row j of x2 after each
  coordinate is divided by its length scale e k = exp (ls k).

  The kernel tiles the result in 512 × 512 blocks over a 16 × 4 grid and reads the length scales twice — the whole row,
  to scale the coordinates, and the block's columns, for the final quotient — so two of its windows stage one array;
  its frame is the frame run over windows that share an array, the same text at the word level and over the extended
  reals. Its value, block by block, is the specification's; the blocks tile the array. The reference's forty-three
  host operations read, one at a time, to the same specification; the one algebraic step between the two programs is
  the association of the product −2 · w · w. Nothing asks the inputs to be finite.
-/
import proofs.«101676_j12438225289613_1_alg».proof.Defs
import proofs.«101676_j12438225289613_1_alg».proof.Proof.Gen.Kernel
import proofs.«101676_j12438225289613_1_alg».proof.Proof.Gen.Kernel.Skeleton
import proofs.«101676_j12438225289613_1_alg».proof.Proof.Gen.Kernel.Launch
import proofs.«101676_j12438225289613_1_alg».proof.Proof.Gen.Kernel.Points
import proofs.«101676_j12438225289613_1_alg».proof.Proof.Gen.KernelIdeal
import proofs.«101676_j12438225289613_1_alg».proof.Proof.Gen.KernelIdeal.Skeleton
import proofs.«101676_j12438225289613_1_alg».proof.Proof.Gen.KernelIdeal.Launch
import proofs.«101676_j12438225289613_1_alg».proof.Proof.Gen.KernelIdeal.Points
import proofs.«101676_j12438225289613_1_alg».proof.Proof.Gen.ReferenceIdeal
import proofs.«101676_j12438225289613_1_alg».proof.Proof.Gen.Pre_finite_inputs
import proofs.«101676_j12438225289613_1_alg».proof.Proof.Gen.ReferenceIdeal.Run
import proofs.«101676_j12438225289613_1_alg».proof.Proof.Gen.ReferenceIdeal.Read
import proofs.«101676_j12438225289613_1_alg».proof.Proof.KRun
import proofs.«101676_j12438225289613_1_alg».proof.Proof.KIClaim
import proofs.«101676_j12438225289613_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the specified function of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.GV m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.ref_is_G,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
